-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2x116 : Shape := ⟨3, ![131072, 2, 116]⟩
abbrev S464x64 : Shape := ⟨2, ![464, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S131072x2x116 : S_.BroadcastsInDim S131072x2x116 (![] : Fin 0 → Fin S131072x2x116.rank)
  reducesTo_S131072x2x116_S_d0_1_2 : S131072x2x116.ReducesTo [0, 1, 2] S_
  h_S_ : 0 < S_.numel
  bcast_S_S464x64 : S_.BroadcastsInDim S464x64 (![] : Fin 0 → Fin S464x64.rank)
  reducesTo_S464x64_S_d0_1 : S464x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S64x32 .f32) (main_arg5 : FVec F S32 .f32) (main_arg6 : FVec F S32x2 .f32) (main_arg7 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x2 .f32 := Host.absf main_arg6
  let main_cst_10 : FVec F S_ .f32 := constant S_ .f32 0x7F800000#32
  let main_v30 : FVec F S32x2 .f32 := broadcastInDim S32x2 ![] bcast_S_S32x2 main_cst_10
  let main_v31 : IVec S32x2 1 := cmpf .olt main_v29 main_v30
  let main_c_11 : IVec S_ 1 := constantI S_ 1 1#1
  let main_v32 : IVec S_ 1 := (fun x v => Host.reduce IntOp.andi x v reducesTo_S32x2_S_d0_1 h_S_) main_v31 main_c_11
  let main_v33 : IVec S_ 1 := andi main_v28 main_v32
  fn_part2 (F := F) main_arg7 main_v33

def fn {F : FTy → Type} [FloatOps F] (main_arg0 : FVec F S131072x2x116 .f32) (main_arg1 : FVec F S131072x2x116 .f32) (main_arg2 : FVec F S464x64 .f32) (main_arg3 : FVec F S64 .f32) (main_arg4 : FVec F S64x32 .f32) (main_arg5 : FVec F S32 .f32) (main_arg6 : FVec F S32x2 .f32) (main_arg7 : FVec F S2 .f32) : IVec S_ 1 :=
  let main_v0 : FVec F S131072x2x116 .f32 := Host.absf main_arg0
  let main_cst : FVec F S_ .f32 := constant S_ .f32 0x7F800000#32
  let main_v1 : FVec F S131072x2x116 .f32 := broadcastInDim S131072x2x116 ![] bcast_S_S131072x2x116 main_cst
  let main_v2 : IVec S131072x2x116 1 := cmpf .olt main_v0 main_v1
  let main_c : IVec S_ 1 := constantI S_ 1 1#1
  let main_v3 : IVec S_ 1 := (fun x v => Host.reduce IntOp.andi x v reducesTo_S131072x2x116_S_d0_1_2 h_S_) main_v2 main_c
  let main_v4 : FVec F S131072x2x116 .f32 := Host.absf main_arg1
  let main_cst_0 : FVec F S_ .f32 := constant S_ .f32 0x7F800000#32
  let main_v5 : FVec F S131072x2x116 .f32 := broadcastInDim S131072x2x116 ![] bcast_S_S131072x2x116 main_cst_0
  let main_v6 : IVec S131072x2x116 1 := cmpf .olt main_v4 main_v5
  let main_c_1 : IVec S_ 1 := constantI S_ 1 1#1
  let main_v7 : IVec S_ 1 := (fun x v => Host.reduce IntOp.andi x v reducesTo_S131072x2x116_S_d0_1_2 h_S_) main_v6 main_c_1
  let main_v8 : IVec S_ 1 := andi main_v3 main_v7
  let main_v9 : FVec F S464x64 .f32 := Host.absf main_arg2
  let main_cst_2 : FVec F S_ .f32 := constant S_ .f32 0x7F800000#32
  let main_v10 : FVec F S464x64 .f32 := broadcastInDim S464x64 ![] bcast_S_S464x64 main_cst_2
  let main_v11 : IVec S464x64 1 := cmpf .olt main_v9 main_v10
  let main_c_3 : IVec S_ 1 := constantI S_ 1 1#1
  let main_v12 : IVec S_ 1 := (fun x v => Host.reduce IntOp.andi x v reducesTo_S464x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S131072x2x116 : Shape := ⟨3, ![131072, 2, 116]⟩
abbrev S464x64 : Shape := ⟨2, ![464, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S131072x2 : Shape := ⟨2, ![131072, 2]⟩
abbrev S1024x2x116 : Shape := ⟨3, ![1024, 2, 116]⟩
abbrev S1024x2 : Shape := ⟨2, ![1024, 2]⟩
abbrev S1024x116 : Shape := ⟨2, ![1024, 116]⟩
abbrev S1024x1x116 : Shape := ⟨3, ![1024, 1, 116]⟩
abbrev S1024x4x116 : Shape := ⟨3, ![1024, 4, 116]⟩
abbrev S1024x464 : Shape := ⟨2, ![1024, 464]⟩
abbrev S1024x64 : Shape := ⟨2, ![1024, 64]⟩
abbrev S1x64 : Shape := ⟨2, ![1, 64]⟩
abbrev S1024x32 : Shape := ⟨2, ![1024, 32]⟩
abbrev S1x32 : Shape := ⟨2, ![1, 32]⟩
abbrev S1x2 : Shape := ⟨2, ![1, 2]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S131072x2x116, .f32⟩
  | .hbm, ⟨1, _⟩ => ⟨S131072x2x116, .f32⟩
  | .hbm, ⟨2, _⟩ => ⟨S464x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S131072x2, .f32⟩
  | .local _ .vmem, ⟨0, _⟩ => ⟨S1024x2x116, .f32⟩
  | .local _ .vmem, ⟨1, _⟩ => ⟨S1024x2x116, .f32⟩
  | .local _ .vmem, ⟨2, _⟩ => ⟨S1024x2x116, .f32⟩
  | .local _ .vmem, ⟨3, _⟩ => ⟨S1024x2x116, .f32⟩
  | .local _ .vmem, ⟨4, _⟩ => ⟨S464x64, .f32⟩
  | .local _ .vmem, ⟨5, _⟩ => ⟨S64, .f32⟩
  | .local _ .vmem, ⟨6, _⟩ => ⟨S64x32, .f32⟩
  | .local _ .vmem, ⟨7, _⟩ => ⟨S32, .f32⟩
  | .local _ .vmem, ⟨8, _⟩ => ⟨S32x2, .f32⟩
  | .local _ .vmem, ⟨9, _⟩ => ⟨S2, .f32⟩
  | .local _ .vmem, ⟨10, _⟩ => ⟨S1024x2, .f32⟩
  | .local _ .vmem, ⟨11, _⟩ => ⟨S1024x2, .f32⟩
  | _, _ => ⟨S131072x2x116, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2x116 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2x116 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S464x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1024x2x116_S1024x2x116_0_0_0 : ∀ a, (![0, 0, 0] : Fin 3 → Nat) a + S1024x2x116.size a ≤ S1024x2x116.size a
  h_S1024x2x116 : 0 < S1024x2x116.numel
  reduces_S1024x2x116_S1024x116 : S1024x2x116.Reduces [1] S1024x116
  shapeCasts_S1024x116_S1024x1x116 : S1024x116.ShapeCasts S1024x1x116
  broadcasts_S1024x1x116_S1024x2x116 : S1024x1x116.Broadcasts S1024x2x116
  concatenates_S1024x2x116_S1024x2x116_S1024x4x116_d1 : Shape.Concatenates [S1024x2x116, S1024x2x116] S1024x4x116 1
  shapeCasts_S1024x4x116_S1024x464 : S1024x4x116.ShapeCasts S1024x464
  bitsLt_bf16_f32 : FTy.bits .bf16 < FTy.bits .f32
  inb_S464x64_S464x64_0_0 : ∀ a, (![0, 0] : Fin 2 → Nat) a + S464x64.size a ≤ S464x64.size a
  h_S464x64 : 0 < S464x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S1024x2 : S1x2.Broadcasts S1024x2
  reduces_S1024x2_S1024 : S1024x2.Reduces [1] S1024
  shapeCasts_S1024_S1024x1 : S1024.ShapeCasts S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  dot_S1024x464_S464x64_S1024x64_1_0_0_1_n_n_wf : DotDims.WF S1024x464 S464x64 S1024x64 [1] [0] [0] [1] [] []
  dot_S1024x64_S64x32_S1024x32_1_0_0_1_n_n_wf : DotDims.WF S1024x64 S64x32 S1024x32 [1] [0] [0] [1] [] []
  dot_S1024x32_S32x2_S1024x2_1_0_0_1_n_n_wf : DotDims.WF S1024x32 S32x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2x116.size a ≤ S131072x2x116.size a
  hwx0_0 : ∀ i : grid0.Coords, EltTy.bits .f32 = 32 ∨ (Rect.block (s := S131072x2x116) S1024x2x116.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2x116.size a ≤ S131072x2x116.size a
  hwx0_1 : ∀ i : grid0.Coords, EltTy.bits .f32 = 32 ∨ (Rect.block (s := S131072x2x116) S1024x2x116.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S464x64.size a ≤ S464x64.size a
  hwx0_2 : ∀ i : grid0.Coords, EltTy.bits .f32 = 32 ∨ (Rect.block (s := S464x64) S464x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x2.size a ≤ S32x2.size a
  hwx0_6 : ∀ i : grid0.Coords, EltTy.bits .f32 = 32 ∨ (Rect.block (s := S32x2) S32x2.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2.size a ≤ S2.size a
  hwx0_7 : ∀ i : grid0.Coords, EltTy.bits .f32 = 32 ∨ (Rect.block (s := S2) S2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x2.size a ≤ S131072x2.size a
  hwx0_8 : ∀ i : grid0.Coords, EltTy.bits .f32 = 32 ∨ (Rect.block (s := S131072x2) S1024x2.size (cc0_transform_8 i) (hinb0_8 i)).WholeWords (EltTy.packing .f32)

variable [Facts₀]

def dot_S1024x464_S464x64_S1024x64_1_0_0_1_n_n : DotDims S1024x464 S464x64 S1024x64 where
  lhsContracting := [1]
  rhsContracting := [0]
  lhsNonContracting := [0]
  rhsNonContracting := [1]
  lhsBatch := []
  rhsBatch := []
  wf := dot_S1024x464_S464x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf

abbrev win0_0 : Pipeline.Window sig grid0 :=
  Pipeline.Window.ofSpec (Memref.whole main_arg0) S1024x2x116.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2x116.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S464x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x2x116 : Shape := ⟨3, ![131072, 2, 116]⟩
abbrev S464x64 : Shape := ⟨2, ![464, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩
abbrev S131072x116 : Shape := ⟨2, ![131072, 116]⟩
abbrev S131072x1x116 : Shape := ⟨3, ![131072, 1, 116]⟩
abbrev S131072x4x116 : Shape := ⟨3, ![131072, 4, 116]⟩
abbrev S131072x464 : Shape := ⟨2, ![131072, 464]⟩
abbrev S131072x64 : Shape := ⟨2, ![131072, 64]⟩
abbrev S1x64 : Shape := ⟨2, ![1, 64]⟩
abbrev S131072x32 : Shape := ⟨2, ![131072, 32]⟩
abbrev S1x32 : Shape := ⟨2, ![1, 32]⟩
abbrev S131072x2 : Shape := ⟨2, ![131072, 2]⟩
abbrev S1x2 : Shape := ⟨2, ![1, 2]⟩
abbrev S131072 : Shape := ⟨1, ![131072]⟩
abbrev S131072x1 : Shape := ⟨2, ![131072, 1]⟩

abbrev nBuf : Space → Nat
  | .hbm => 66
  | .vmem => 0
  | .smem => 0
  | _ => 0

abbrev bufTy : (tb : Table) → Fin (tcTables nBuf tb) → BufTy
  | .hbm, ⟨0, _⟩ => ⟨S131072x2x116, .f32⟩
  | .hbm, ⟨1, _⟩ => ⟨S131072x2x116, .f32⟩
  | .hbm, ⟨2, _⟩ => ⟨S464x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S_, .f32⟩
  | .hbm, ⟨9, _⟩ => ⟨S131072x116, .f32⟩
  | .hbm, ⟨10, _⟩ => ⟨S_, .f32⟩
  | .hbm, ⟨11, _⟩ => ⟨S131072x116, .f32⟩
  | .hbm, ⟨12, _⟩ => ⟨S131072x116, .f32⟩
  | .hbm, ⟨13, _⟩ => ⟨S_, .f32⟩
  | .hbm, ⟨14, _⟩ => ⟨S131072x116, .f32⟩
  | .hbm, ⟨15, _⟩ => ⟨S_, .f32⟩
  | .hbm, ⟨16, _⟩ => ⟨S131072x116, .f32⟩
  | .hbm, ⟨17, _⟩ => ⟨S131072x116, .f32⟩
  | .hbm, ⟨18, _⟩ => ⟨S131072x116, .f32⟩
  | .hbm, ⟨19, _⟩ => ⟨S131072x116, .f32⟩
  | .hbm, ⟨20, _⟩ => ⟨S131072x116, .f32⟩
  | .hbm, ⟨21, _⟩ => ⟨S_, .f32⟩
  | .hbm, ⟨22, _⟩ => ⟨S131072x116, .f32⟩
  | .hbm, ⟨23, _⟩ => ⟨S131072x116, .f32⟩
  | .hbm, ⟨24, _⟩ => ⟨S_, .f32⟩
  | .hbm, ⟨25, _⟩ => ⟨S131072x116, .f32⟩
  | .hbm, ⟨26, _⟩ => ⟨S131072x116, .f32⟩
  | .hbm, ⟨27, _⟩ => ⟨S131072x1x116, .f32⟩
  | .hbm, ⟨28, _⟩ => ⟨S131072x2x116, .f32⟩
  | .hbm, ⟨29, _⟩ => ⟨S131072x2x116, .f32⟩
  | .hbm, ⟨30, _⟩ => ⟨S131072x2x116, .f32⟩
  | .hbm, ⟨31, _⟩ => ⟨S131072x2x116, .f32⟩
  | .hbm, ⟨32, _⟩ => ⟨S131072x4x116, .f32⟩
  | .hbm, ⟨33, _⟩ => ⟨S131072x464, .f32⟩
  | .hbm, ⟨34, _⟩ => ⟨S131072x64, .f32⟩
  | .hbm, ⟨35, _⟩ => ⟨S1x64, .f32⟩
  | .hbm, ⟨36, _⟩ => ⟨S131072x64, .f32⟩
  | .hbm, ⟨37, _⟩ => ⟨S131072x64, .f32⟩
  | .hbm, ⟨38, _⟩ => ⟨S_, .f32⟩
  | .hbm, ⟨39, _⟩ => ⟨S131072x64, .f32⟩
  | .hbm, ⟨40, _⟩ => ⟨S131072x64, .f32⟩
  | .hbm, ⟨41, _⟩ => ⟨S131072x32, .f32⟩
  | .hbm, ⟨42, _⟩ => ⟨S1x32, .f32⟩
  | .hbm, ⟨43, _⟩ => ⟨S131072x32, .f32⟩
  | .hbm, ⟨44, _⟩ => ⟨S131072x32, .f32⟩
  | .hbm, ⟨45, _⟩ => ⟨S_, .f32⟩
  | .hbm, ⟨46, _⟩ => ⟨S131072x32, .f32⟩
  | .hbm, ⟨47, _⟩ => ⟨S131072x32, .f32⟩
  | .hbm, ⟨48, _⟩ => ⟨S131072x2, .f32⟩
  | .hbm, ⟨49, _⟩ => ⟨S1x2, .f32⟩
  | .hbm, ⟨50, _⟩ => ⟨S131072x2, .f32⟩
  | .hbm, ⟨51, _⟩ => ⟨S131072x2, .f32⟩
  | .hbm, ⟨52, _⟩ => ⟨S_, .f32⟩
  | .hbm, ⟨53, _⟩ => ⟨S131072, .f32⟩
  | .hbm, ⟨54, _⟩ => ⟨S_, .f32⟩
  | .hbm, ⟨55, _⟩ => ⟨S131072, .f32⟩
  | .hbm, ⟨56, _⟩ => ⟨S131072, .f32⟩
  | .hbm, ⟨57, _⟩ => ⟨S131072x1, .f32⟩
  | .hbm, ⟨58, _⟩ => ⟨S131072x2, .f32⟩
  | .hbm, ⟨59, _⟩ => ⟨S131072x2, .f32⟩
  | .hbm, ⟨60, _⟩ => ⟨S131072x2, .f32⟩
  | .hbm, ⟨61, _⟩ => ⟨S_, .f32⟩
  | .hbm, ⟨62, _⟩ => ⟨S131072, .f32⟩
  | .hbm, ⟨63, _⟩ => ⟨S131072x1, .f32⟩
  | .hbm, ⟨64, _⟩ => ⟨S131072x2, .f32⟩
  | .hbm, ⟨65, _⟩ => ⟨S131072x2, .f32⟩
  | _, _ => ⟨S131072x2x116, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  reducesTo_S131072x2x116_S131072x116_d1 : S131072x2x116.ReducesTo [1] S131072x116
  h_S_ : 0 < S_.numel
  bcast_S_S131072x116 : S_.BroadcastsInDim S131072x116 (![] : Fin 0 → Fin S131072x116.rank)
  bcast_S131072x116_S131072x1x116_0_2 : S131072x116.BroadcastsInDim S131072x1x116 (![0, 2] : Fin 2 → Fin S131072x1x116.rank)
  bcast_S131072x1x116_S131072x2x116_0_1_2 : S131072x1x116.BroadcastsInDim S131072x2x116 (![0, 1, 2] : Fin 3 → Fin S131072x2x116.rank)
  concatenates_S131072x2x116_S131072x2x116_S131072x4x116_d1 : Shape.Concatenates [S131072x2x116, S131072x2x116] S131072x4x116 1
  shapeCasts_S131072x4x116_S131072x464 : S131072x4x116.ShapeCasts S131072x464
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  reducesTo_S131072x2_S131072_d1 : S131072x2.ReducesTo [1] S131072
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x2_0_1 : S131072x1.BroadcastsInDim S131072x2 (![0, 1] : Fin 2 → Fin S131072x2.rank)
  dot_S131072x464_S464x64_S131072x64_1_0_0_1_n_n_wf : DotDims.WF S131072x464 S464x64 S131072x64 [1] [0] [0] [1] [] []
  dot_S131072x64_S64x32_S131072x32_1_0_0_1_n_n_wf : DotDims.WF S131072x64 S64x32 S131072x32 [1] [0] [0] [1] [] []
  dot_S131072x32_S32x2_S131072x2_1_0_0_1_n_n_wf : DotDims.WF S131072x32 S32x2 S131072x2 [1] [0] [0] [1] [] []

variable [Facts₀]

def dot_S131072x464_S464x64_S131072x64_1_0_0_1_n_n : DotDims S131072x464 S464x64 S131072x64 where
  lhsContracting := [1]
  rhsContracting := [0]
  lhsNonContracting := [0]
  rhsNonContracting := [1]
  lhsBatch := []
  rhsBatch := []
  wf := dot_S131072x464_S464x64_S131072x64_1_0_0_1_n_n_wf
def dot_S131072x64_S64x32_S131072x32_1_0_0_1_n_n : DotDims S131072x64 S64x32 S131072x32 where
  lhsContracting := [1]
  rhsContracting := [0]
  lhsNonContracting := [0]
  rhsNonContracting := [1]
  lhsBatch := []
  rhsBatch := []
  wf := dot_S131072x64_S64x32_S131072x32_1_0_0_1_n_n_wf
def dot_S131072x32_S32x2_S131072x2_1_0_0_1_n_n : DotDims S131072x32 S32x2 S131072x2 where
  lhsContracting := [1]
  rhsContracting := [0]
  lhsNonContracting := [0]
  rhsNonContracting := [1]
  lhsBatch := []
  rhsBatch := []
  wf := dot_S131072x32_S32x2_S131072x2_1_0_0_1_n_n_wf

class Facts : Prop extends Facts₀ where

variable [Facts]
-- ==== Proof.Spec.lean ====
/-
  The network of this certificate, one batch row at a time, over the extended reals.

  A row carries two channel pairs `f, s : Fin 2 → Fin 116 → EReal`. Per lane `j` the channel means of
  `f` and of `s` are multiplied and passed through the logistic function: the gate `g j`. Each of the four
  channels (the two of `f`, then the two of `s`) is scaled lane by lane by the gate and the four are laid
  end to end into a feature vector of length `464 = 4 · 116`: feature `c` is channel `c / 116` at lane
  `c % 116`. Three affine layers follow (`464 → 64 → 32 → 2`), the first two clipped below at zero, and a
  softmax over the two logits, taken with the row maximum subtracted before exponentiating.

  Everything is stated through the exact operations of the ideal instance (`Ideal.div`, `Ideal.exp`,
  `Ideal.logistic`, `max`, sums and products of extended reals); the float literals stay as the words
  the programs spell (`2.0`, `0.0`, `-inf`), so that no literal is ever evaluated.
-/
import Idealize.ShloMosaic.PureOps.Ideal
import Idealize.ShloMosaic.Lib.ValueIdx

noncomputable section

open scoped BigOperators

namespace Cert.GatedMlp

open Idealize.ShloMosaic

/-- The mean over the two channels at lane `j`: their sum divided by the literal `2.0`. -/
def chanMean (x : Fin 2 → Fin 116 → EReal) (j : Fin 116) : EReal :=
  Ideal.div (∑ k : Fin 2, x k j) (Ideal.ofBits .f32 0x40000000#32)

/-- The gate at lane `j`: the logistic function of the product of the two channel means. -/
def gate (f s : Fin 2 → Fin 116 → EReal) (j : Fin 116) : EReal :=
  Ideal.logistic (chanMean f j * chanMean s j)

/-- The four gated channels: channels 0, 1 are `f`'s, channels 2, 3 are `s`'s, each times the gate. -/
def gated (f s : Fin 2 → Fin 116 → EReal) (a : Fin 4) (j : Fin 116) : EReal :=
  if h : a.val < 2 then f ⟨a.val, h⟩ j * gate f s j
  else s ⟨a.val - 2, by have := a.isLt; omega⟩ j * gate f s j

/-- The feature vector: the four gated channels end to end, feature `c` at channel `c / 116`, lane `c % 116`. -/
def feat (f s : Fin 2 → Fin 116 → EReal) (c : Fin 464) : EReal :=
  gated f s ⟨c.val / 116, by have := c.isLt; omega⟩ ⟨c.val % 116, Nat.mod_lt _ (by norm_num)⟩

/-- An affine layer: `(x · W + b) n = ∑ k, x k * W[k, n] + b[n]`. -/
def affine {K N : Nat} (x : Fin K → EReal) (W : (⟨2, ![K, N]⟩ : Shape).Idx → EReal)
    (b : (⟨1, ![N]⟩ : Shape).Idx → EReal) (n : Fin N) : EReal :=
  ∑ k : Fin K, x k * W (ValueIdx.ix2 k n) + b (ValueIdx.ix1 n)

/-- Clipping below at the literal `0.0`. -/
def relu (x : EReal) : EReal := max x (Ideal.ofBits .f32 0x00000000#32)

/-- The row maximum as the programs take it: the fold of `max` from `-inf`, then once more against `-inf`. -/
def rowMax (l : Fin 2 → EReal) : EReal :=
  max (Ideal.ofBits .f32 0xFF800000#32) ((Finset.univ : Finset (Fin 2)).fold max (Ideal.ofBits .f32 0xFF800000#32) l)

/-- The shifted exponentials of the softmax. -/
def expShift (l : Fin 2 → EReal) (q : Fin 2) : EReal := Ideal.exp (l q - rowMax l)

/-- The softmax over the two logits. -/
def softmax (l : Fin 2 → EReal) (q : Fin 2) : EReal :=
  Ideal.div (expShift l q) (∑ k : Fin 2, expShift l k)

section Net
variable (f s : Fin 2 → Fin 116 → EReal)
  (W1 : (⟨2, ![464, 64]⟩ : Shape).Idx → EReal) (b1 : (⟨1, ![64]⟩ : Shape).Idx → EReal)
  (W2 : (⟨2, ![64, 32]⟩ : Shape).Idx → EReal) (b2 : (⟨1, ![32]⟩ : Shape).Idx → EReal)
  (W3 : (⟨2, ![32, 2]⟩ : Shape).Idx → EReal) (b3 : (⟨1, ![2]⟩ : Shape).Idx → EReal)

/-- The first hidden layer of a row. -/
def hidden1 (n : Fin 64) : EReal := relu (affine (feat f s) W1 b1 n)

/-- The second hidden layer of a row. -/
def hidden2 (n : Fin 32) : EReal := relu (affine (hidden1 f s W1 b1) W2 b2 n)

/-- The two logits of a row. -/
def logits (q : Fin 2) : EReal := affine (hidden2 f s W1 b1 W2 b2) W3 b3 q

/-- The network's output for a row: the softmax of its logits. -/
def net (q : Fin 2) : EReal := softmax (logits f s W1 b1 W2 b2 W3 b3) q

end Net

/-- Row `r` of a `[R, 2, 116]` array as two channels of 116 lanes. -/
def row {R : Nat} (x : (⟨3, ![R, 2, 116]⟩ : Shape).Idx → EReal) (r : Fin R) : Fin 2 → Fin 116 → EReal :=
  fun k j => x (ValueIdx.ix3 r k j)

/-- THE RESULT ARRAY as one function of the eight argument arrays: at `(r, q)` the network's output `q` for
    batch row `r` of the two inputs. -/
def whole (A0 A1 : (⟨3, ![131072, 2, 116]⟩ : Shape).Idx → EReal)
    (W1 : (⟨2, ![464, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 2]⟩ : Shape).Idx → EReal) (b3 : (⟨1, ![2]⟩ : Shape).Idx → EReal) :
    (⟨2, ![131072, 2]⟩ : Shape).Idx → EReal :=
  fun i => net (row A0 (i 0)) (row A1 (i 0)) W1 b1 W2 b2 W3 b3 (i 1)

end Cert.GatedMlp

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KerRows.lean ====
/-
  The kernel body, read one block row at a time.

  At a grid point the body sees a block of 1024 batch rows of each input and the whole weights. Its
  stored value is a chain of stages — channel sums divided by two, the logistic gate re-laid over the
  two channels, the gated channels joined and flattened into 464 features, three matrix products into
  a zero accumulator each followed by a bias row and (for the first two) a clip at zero, and a softmax
  over the two logits. The narrowing to bf16 before each product is the identity on extended reals.
  Stage by stage, the value at block row `p` is the corresponding function of `Cert.GatedMlp` of row `p`
  of the two blocks; so the stored value at `(p, q)` is the network's output `q` for that row.
-/
import proofs.«141729_j73023033966684_1_alg».proof.Proof.Gen.KernelIdeal.Skeleton
import proofs.«141729_j73023033966684_1_alg».proof.Proof.Spec
import proofs.«141729_j73023033966684_1_alg».proof.Proof.LibDot2
import Idealize.ShloMosaic.Lib.Pipeline.Value
import Idealize.ShloMosaic.Lib.ValueLayout
import Idealize.ShloMosaic.PureOps.Ideal.Laws

noncomputable section

open scoped BigOperators

namespace Cert.KernelIdeal.Rows

open Cert.KernelIdeal Cert.KernelIdeal.Gen Cert.GatedMlp
open Idealize.ShloMosaic Idealize.ShloMosaic.ValueIdx Idealize.ShloMosaic.Dot2

/-! ## Re-laying a column: `[a] → [a, 1] → [a, b]` and `[a, b] → [a, 1, b] → [a, n, b]` -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, 1, b]` reads, at `(i, u, j)`, the operand at `(i, j)`. -/
theorem shapeCast_ab_a1b_apply {a b : ℕ} (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array broadcast to `[a, n, b]` reads, at `(i, k, j)`, the operand at `(i, 0, j)`. -/
theorem broadcastTo_a1b_anb_apply {a n b : ℕ} (v : (⟨3, ![a, 1, b]⟩ : Shape).Idx → α) (h : (⟨3, ![a, 1, b]⟩ : Shape).Broadcasts ⟨3, ![a, n, b]⟩)
    (i : Fin a) (k : Fin n) (j : Fin b) : broadcastTo ⟨3, ![a, n, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

end Layout

variable (x0 x1 : FVec Ideal S1024x2x116 .f32) (w1 : FVec Ideal S464x64 .f32) (c1 : FVec Ideal S64 .f32)
  (w2 : FVec Ideal S64x32 .f32) (c2 : FVec Ideal S32 .f32) (w3 : FVec Ideal S32x2 .f32) (c3 : FVec Ideal S2 .f32)

/-! ## The body's stages, as the payloads spell them -/

/-- The channel mean of a block: the sum over the channel axis divided by the splat of `2.0`. -/
def bMean (x : FVec Ideal S1024x2x116 .f32) : FVec Ideal S1024x116 .f32 :=
  divf (multiReduction .add [1] S1024x116 x 0x00000000#32 reduces_S1024x2x116_S1024x116 (.inl rfl) rfl)
    (broadcast S1024x116 (Scalar.ofBits .f32 0x40000000#32))

/-- The gate, re-laid over the two channels. -/
def bGate : FVec Ideal S1024x2x116 .f32 :=
  broadcastTo S1024x2x116 (shapeCast S1024x1x116 (logistic (mulf (bMean x0) (bMean x1))) shapeCasts_S1024x116_S1024x1x116)
    broadcasts_S1024x1x116_S1024x2x116

/-- The 464 features of each row: the gated channels joined along the channel axis and flattened. -/
def bFeat : FVec Ideal S1024x464 .f32 :=
  shapeCast S1024x464 (concatenate S1024x4x116 1 [⟨S1024x2x116, mulf x0 (bGate x0 x1)⟩, ⟨S1024x2x116, mulf x1 (bGate x0 x1)⟩]
    concatenates_S1024x2x116_S1024x2x116_S1024x4x116_d1) shapeCasts_S1024x4x116_S1024x464

/-- The first hidden layer of the block. -/
def bHidden1 : FVec Ideal S1024x64 .f32 :=
  maximumf (addf (matmul dot_S1024x464_S464x64_S1024x64_1_0_0_1_n_n none (truncf .bf16 (bFeat x0 x1) bitsLt_bf16_f32)
        (truncf .bf16 w1 bitsLt_bf16_f32) (constant S1024x64 .f32 0x00000000#32))
      (broadcastTo S1024x64 (shapeCast S1x64 c1 shapeCasts_S64_S1x64) broadcasts_S1x64_S1024x64))
    (broadcast S1024x64 (Scalar.ofBits .f32 0x00000000#32))

/-- The second hidden layer of the block. -/
def bHidden2 : FVec Ideal S1024x32 .f32 :=
  maximumf (addf (matmul dot_S1024x64_S64x32_S1024x32_1_0_0_1_n_n none (truncf .bf16 (bHidden1 x0 x1 w1 c1) bitsLt_bf16_f32)
        (truncf .bf16 w2 bitsLt_bf16_f32) (constant S1024x32 .f32 0x00000000#32))
      (broadcastTo S1024x32 (shapeCast S1x32 c2 shapeCasts_S32_S1x32) broadcasts_S1x32_S1024x32))
    (broadcast S1024x32 (Scalar.ofBits .f32 0x00000000#32))

/-- The first payload is the second hidden layer, narrowed. -/
theorem pay2_eq : k0_pay2 (F := Ideal) x0 x1 w1 c1 w2 c2 = truncf .bf16 (bHidden2 x0 x1 w1 c1 w2 c2) bitsLt_bf16_f32 := rfl

/-- The logits of the block, from the (narrowed) second hidden layer. -/
def bLogits (h2 : FVec Ideal S1024x32 .bf16) : FVec Ideal S1024x2 .f32 :=
  addf (matmul dot_S1024x32_S32x2_S1024x2_1_0_0_1_n_n none h2 (truncf .bf16 w3 bitsLt_bf16_f32) (constant S1024x2 .f32 0x00000000#32))
    (broadcastTo S1024x2 (shapeCast S1x2 c3 shapeCasts_S2_S1x2) broadcasts_S1x2_S1024x2)

/-- The row maxima of an array of logits. -/
def bMax (lg : FVec Ideal S1024x2 .f32) : FVec Ideal S1024 .f32 :=
  maximumf (broadcast S1024 (Scalar.ofBits .f32 0xFF800000#32))
    (multiReduction .maximumf [1] S1024 lg 0xFF800000#32 reduces_S1024x2_S1024 (.inl rfl) rfl)

/-- The shifted exponentials of an array of logits. -/
def bExp (lg : FVec Ideal S1024x2 .f32) : FVec Ideal S1024x2 .f32 :=
  exp (subf lg (broadcastTo S1024x2 (shapeCast S1024x1 (bMax lg) shapeCasts_S1024_S1024x1) broadcasts_S1024x1_S1024x2))

/-- The softmax of an array of logits. -/
def bSoftmax (lg : FVec Ideal S1024x2 .f32) : FVec Ideal S1024x2 .f32 :=
  divf (bExp lg) (broadcastTo S1024x2 (shapeCast S1024x1
    (multiReduction .add [1] S1024 (bExp lg) 0x00000000#32 reduces_S1024x2_S1024 (.inl rfl) rfl) shapeCasts_S1024_S1024x1)
    broadcasts_S1024x1_S1024x2)

/-- The second payload is the softmax of the logits. -/
theorem pay1_eq (h2 : FVec Ideal S1024x32 .bf16) : k0_pay1 (F := Ideal) h2 w3 c3 = bSoftmax (bLogits w3 c3 h2) := rfl

/-! ## Each stage at a block row -/

/-- The channel mean at block row `p`, lane `j`. -/
theorem bMean_apply (x : FVec Ideal S1024x2x116 .f32) (p : Fin 1024) (j : Fin 116) :
    bMean x (ix2 p j) = chanMean (row x p) j := by
  unfold bMean
  rw [divf_apply, broadcast_apply]
  show Ideal.div _ _ = Ideal.div _ _
  refine congrArg₂ Ideal.div ?_ rfl
  refine (Ideal.multiReduction_add_single x 0x00000000#32 reduces_S1024x2x116_S1024x116 (.inl rfl) rfl (ix2 p j)).trans ?_
  refine Finset.sum_congr rfl fun k _ => ?_
  exact congrArg x (funext fun a => Fin.ext (by match a with | ⟨0, _⟩ => rfl | ⟨1, _⟩ => rfl | ⟨2, _⟩ => rfl))

/-- The gate at block row `p`, whatever the channel. -/
theorem bGate_apply (p : Fin 1024) (k : Fin 2) (j : Fin 116) :
    bGate x0 x1 (ix3 p k j) = gate (row x0 p) (row x1 p) j := by
  unfold bGate
  rw [broadcastTo_a1b_anb_apply, shapeCast_ab_a1b_apply]
  show FloatOps.logistic (FloatOps.mulf (bMean x0 (ix2 p j)) (bMean x1 (ix2 p j))) = _
  rw [bMean_apply, bMean_apply]
  rfl

/-- The features at block row `p`: feature `c` is gated channel `c / 116` at lane `c % 116`. -/
theorem bFeat_apply (p : Fin 1024) (c : Fin 464) :
    bFeat x0 x1 (ix2 p c) = feat (row x0 p) (row x1 p) c := by
  have hc : c.val < 464 := c.isLt
  have hp : p.val < 1024 := p.isLt
  unfold bFeat feat gated
  by_cases h : c.val / 116 < 2
  · rw [dif_pos h]
    refine (shapeCast_apply _ shapeCasts_S1024x4x116_S1024x464 (ix2 p c)
      (ix3 p (⟨c.val / 116, by omega⟩ : Fin 4) (⟨c.val % 116, Nat.mod_lt _ (by norm_num)⟩ : Fin 116)) ?_).trans ?_
    · rw [Shape.rowMajor_val_two, Shape.rowMajor_val_three]
      show (p.val * 4 + c.val / 116) * 116 + c.val % 116 = p.val * 464 + c.val
      omega
    refine (concatenate_pair_apply_left (t := S1024x4x116) (s₁ := S1024x2x116) (s₂ := S1024x2x116) 1 _ _ _ _ rfl
      (ix3 p (⟨c.val / 116, h⟩ : Fin 2) (⟨c.val % 116, Nat.mod_lt _ (by norm_num)⟩ : Fin 116)) ?_).trans ?_
    · intro b
      match b with
      | ⟨0, _⟩ => rfl
      | ⟨1, _⟩ => rfl
      | ⟨2, _⟩ => rfl
    · rw [mulf_apply, bGate_apply]; rfl
  · rw [dif_neg h]
    have h4 : c.val / 116 < 4 := by omega
    refine (shapeCast_apply _ shapeCasts_S1024x4x116_S1024x464 (ix2 p c)
      (ix3 p (⟨c.val / 116, h4⟩ : Fin 4) (⟨c.val % 116, Nat.mod_lt _ (by norm_num)⟩ : Fin 116)) ?_).trans ?_
    · rw [Shape.rowMajor_val_two, Shape.rowMajor_val_three]
      show (p.val * 4 + c.val / 116) * 116 + c.val % 116 = p.val * 464 + c.val
      omega
    refine (concatenate_pair_apply_right (t := S1024x4x116) (s₁ := S1024x2x116) (s₂ := S1024x2x116) 1 _ _ _ _ rfl rfl
      (ix3 p (⟨c.val / 116 - 2, by omega⟩ : Fin 2) (⟨c.val % 116, Nat.mod_lt _ (by norm_num)⟩ : Fin 116)) ?_ ?_).trans ?_
    · intro b hb
      match b, hb with
      | ⟨0, _⟩, _ => rfl
      | ⟨1, _⟩, hb => exact absurd rfl hb
      | ⟨2, _⟩, _ => rfl
    · show c.val / 116 - 2 + 2 = c.val / 116; omega
    · rw [mulf_apply, bGate_apply]; rfl

/-- The first hidden layer at block row `p`. -/
theorem bHidden1_apply (p : Fin 1024) (n : Fin 64) :
    bHidden1 x0 x1 w1 c1 (ix2 p n) = hidden1 (row x0 p) (row x1 p) w1 c1 n := by
  unfold bHidden1
  rw [maximumf_apply, addf_apply, broadcast_apply, broadcastTo_1b_ab_apply, shapeCast_a_1a_apply]
  have hm := matmul_zero_mm_apply (M := 1024) (K := 464) (N := 64) dot_S1024x464_S464x64_S1024x64_1_0_0_1_n_n_wf none
    (truncf .bf16 (bFeat x0 x1) bitsLt_bf16_f32) (truncf .bf16 w1 bitsLt_bf16_f32) p n
  refine congrArg₂ max (congrArg₂ (· + ·) (hm.trans ?_) rfl) rfl
  refine Finset.sum_congr rfl fun k _ => ?_
  show bFeat x0 x1 (ix2 p k) * w1 (ix2 k n) = _
  rw [bFeat_apply]

/-- The second hidden layer at block row `p`. -/
theorem bHidden2_apply (p : Fin 1024) (n : Fin 32) :
    bHidden2 x0 x1 w1 c1 w2 c2 (ix2 p n) = hidden2 (row x0 p) (row x1 p) w1 c1 w2 c2 n := by
  unfold bHidden2
  rw [maximumf_apply, addf_apply, broadcast_apply, broadcastTo_1b_ab_apply, shapeCast_a_1a_apply]
  have hm := matmul_zero_mm_apply (M := 1024) (K := 64) (N := 32) dot_S1024x64_S64x32_S1024x32_1_0_0_1_n_n_wf none
    (truncf .bf16 (bHidden1 x0 x1 w1 c1) bitsLt_bf16_f32) (truncf .bf16 w2 bitsLt_bf16_f32) p n
  refine congrArg₂ max (congrArg₂ (· + ·) (hm.trans ?_) rfl) rfl
  refine Finset.sum_congr rfl fun k _ => ?_
  show bHidden1 x0 x1 w1 c1 (ix2 p k) * w2 (ix2 k n) = _
  rw [bHidden1_apply]

/-- The logits at block row `p`. -/
theorem bLogits_apply (p : Fin 1024) (q : Fin 2) :
    bLogits w3 c3 (truncf .bf16 (bHidden2 x0 x1 w1 c1 w2 c2) bitsLt_bf16_f32) (ix2 p q)
      = logits (row x0 p) (row x1 p) w1 c1 w2 c2 w3 c3 q := by
  unfold bLogits
  rw [addf_apply, broadcastTo_1b_ab_apply, shapeCast_a_1a_apply]
  have hm := matmul_zero_mm_apply (M := 1024) (K := 32) (N := 2) dot_S1024x32_S32x2_S1024x2_1_0_0_1_n_n_wf none
    (truncf .bf16 (bHidden2 x0 x1 w1 c1 w2 c2) bitsLt_bf16_f32) (truncf .bf16 w3 bitsLt_bf16_f32) p q
  refine congrArg₂ (· + ·) (hm.trans ?_) rfl
  refine Finset.sum_congr rfl fun k _ => ?_
  show bHidden2 x0 x1 w1 c1 w2 c2 (ix2 p k) * w3 (ix2 k q) = _
  rw [bHidden2_apply]

/-! ## The softmax at a block row, for any array of logits whose row `p` is `l` -/

/-- The row maximum at block row `p`. -/
theorem bMax_apply (lg : FVec Ideal S1024x2 .f32) (p : Fin 1024) (l : Fin 2 → EReal) (hl : ∀ q, lg (ix2 p q) = l q) :
    bMax lg (ix1 p) = rowMax l := by
  unfold bMax
  rw [maximumf_apply, broadcast_apply]
  refine congrArg₂ max rfl ?_
  refine (Ideal.multiReduction_maximumf_single lg 0xFF800000#32 reduces_S1024x2_S1024 (.inl rfl) rfl (ix1 p)).trans ?_
  have hf : (lg ∘ reduces_S1024x2_S1024.lift (ix1 p)) = l := by
    funext k
    show lg (reduces_S1024x2_S1024.lift (ix1 p) k) = l k
    rw [← hl k]
    exact congrArg lg (funext fun a => Fin.ext (by match a with | ⟨0, _⟩ => rfl | ⟨1, _⟩ => rfl))
  rw [hf]
  rfl

/-- The shifted exponential at block row `p`. -/
theorem bExp_apply (lg : FVec Ideal S1024x2 .f32) (p : Fin 1024) (l : Fin 2 → EReal) (hl : ∀ q, lg (ix2 p q) = l q) (q : Fin 2) :
    bExp lg (ix2 p q) = expShift l q := by
  unfold bExp
  show FloatOps.exp (FloatOps.subf (lg (ix2 p q)) (broadcastTo S1024x2 (shapeCast S1024x1 (bMax lg) shapeCasts_S1024_S1024x1) broadcasts_S1024x1_S1024x2 (ix2 p q))) = _
  rw [broadcastTo_a1_ab_apply, shapeCast_a_a1_apply, bMax_apply lg p l hl, hl q]
  rfl

/-- The softmax at block row `p`. -/
theorem bSoftmax_apply (lg : FVec Ideal S1024x2 .f32) (p : Fin 1024) (l : Fin 2 → EReal) (hl : ∀ q, lg (ix2 p q) = l q) (q : Fin 2) :
    bSoftmax lg (ix2 p q) = softmax l q := by
  unfold bSoftmax
  rw [divf_apply, broadcastTo_a1_ab_apply, shapeCast_a_a1_apply, bExp_apply lg p l hl q]
  show Ideal.div _ _ = Ideal.div _ _
  refine congrArg₂ Ideal.div rfl ?_
  refine (Ideal.multiReduction_add_single (bExp lg) 0x00000000#32 reduces_S1024x2_S1024 (.inl rfl) rfl (ix1 p)).trans ?_
  refine Finset.sum_congr rfl fun k _ => ?_
  rw [← bExp_apply lg p l hl k]
  exact congrArg (bExp lg) (funext fun a => Fin.ext (by match a with | ⟨0, _⟩ => rfl | ⟨1, _⟩ => rfl))

/-- THE BODY'S STORED VALUE at block row `p`, output `q`: the network's output `q` for row `p` of the two blocks. -/
theorem payload_apply (p : Fin 1024) (q : Fin 2) :
    k0_pay1 (F := Ideal) (k0_pay2 (F := Ideal) x0 x1 w1 c1 w2 c2) w3 c3 (ix2 p q)
      = net (row x0 p) (row x1 p) w1 c1 w2 c2 w3 c3 q := by
  rw [pay2_eq, pay1_eq]
  exact bSoftmax_apply _ p _ (fun q' => bLogits_apply x0 x1 w1 c1 w2 c2 w3 c3 p q') q

end Cert.KernelIdeal.Rows

end
-- ==== Proof.KerArray.lean ====
/-
  From the grid's blocks to the whole result array.

  The grid has 128 points; point `t` fetches batch rows `1024 t … 1024 t + 1023` of the two inputs and the
  whole weights, and writes back rows `1024 t … 1024 t + 1023` of the result. The body's stored value at
  block row `p` is the network's output for row `p` of the fetched blocks, that is, for batch row
  `1024 t + p` of the inputs; so what point `t` writes back is block `t` of ONE array, `Cert.GatedMlp.whole`
  of the eight arguments. Every batch row `r` lies in the block of point `r / 1024`, so the blocks cover
  the result array, which therefore ends holding `whole` of the arguments.
-/
import proofs.«141729_j73023033966684_1_alg».proof.Proof.Gen.KernelIdeal.Value
import proofs.«141729_j73023033966684_1_alg».proof.Proof.KerRows
import Idealize.ShloMosaic.Lib.Pipeline.Value

noncomputable section

namespace Cert.KernelIdeal.Whole

open Cert.KernelIdeal Cert.KernelIdeal.Gen Cert.KernelIdeal.Rows Cert.GatedMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the 128 grid points: the inputs' windows and the result's sit at block row `t` (block 0 on
    their other axes); the six weight windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## Each input window's block as rows of its argument -/

/-- Row `p` of the first input's block at point `t` is batch row `1024 t + p` of the first input. -/
theorem iblk0_row (c : Dev nD) (t : Fin cfg0.N) (p : Fin 1024) (r : Fin 131072) (hr : r.val = 1024 * t.val + p.val) :
    row (iblk m c 0 t : FVec Ideal S1024x2x116 .f32) p = row (V m c main_arg0 : S131072x2x116.Idx → EReal) r := by
  obtain ⟨e0, e1, e2, -⟩ := idx_facts t
  funext k j
  show (iblk m c 0 t : FVec Ideal S1024x2x116 .f32) (ix3 p k j) = V m c main_arg0 (ix3 r k j)
  unfold iblk
  rw [View.read_apply]
  show V m c main_arg0 _ = V m c main_arg0 _
  congr 1
  funext a
  apply Fin.ext
  match a with
  | ⟨0, _⟩ => show win0_0.index t (0 : Fin 3) * 1024 + 1 * p.val = r.val; rw [e0, hr]; omega
  | ⟨1, _⟩ => show win0_0.index t (1 : Fin 3) * 2 + 1 * k.val = k.val; rw [e1]; omega
  | ⟨2, _⟩ => show win0_0.index t (2 : Fin 3) * 116 + 1 * j.val = j.val; rw [e2]; omega

/-- Row `p` of the second input's block at point `t` is batch row `1024 t + p` of the second input. -/
theorem iblk1_row (c : Dev nD) (t : Fin cfg0.N) (p : Fin 1024) (r : Fin 131072) (hr : r.val = 1024 * t.val + p.val) :
    row (iblk m c 1 t : FVec Ideal S1024x2x116 .f32) p = row (V m c main_arg1 : S131072x2x116.Idx → EReal) r := by
  obtain ⟨-, -, -, e0, e1, e2, -⟩ := idx_facts t
  funext k j
  show (iblk m c 1 t : FVec Ideal S1024x2x116 .f32) (ix3 p k j) = V m c main_arg1 (ix3 r k j)
  unfold iblk
  rw [View.read_apply]
  show V m c main_arg1 _ = V m c main_arg1 _
  congr 1
  funext a
  apply Fin.ext
  match a with
  | ⟨0, _⟩ => show win0_1.index t (0 : Fin 3) * 1024 + 1 * p.val = r.val; rw [e0, hr]; omega
  | ⟨1, _⟩ => show win0_1.index t (1 : Fin 3) * 2 + 1 * k.val = k.val; rw [e1]; omega
  | ⟨2, _⟩ => show win0_1.index t (2 : Fin 3) * 116 + 1 * j.val = j.val; rw [e2]; omega

/-- A weight window's block is the whole weight array at every point. -/
theorem iblk2_eq (c : Dev nD) (t : Fin cfg0.N) :
    (iblk m c 2 t : FVec Ideal S464x64 .f32) = (V m c main_arg2 : S464x64.Idx → EReal) := by
  obtain ⟨-, -, -, -, -, -, e0, e1, -⟩ := idx_facts t
  funext y
  unfold iblk
  rw [View.read_apply]
  show V m c main_arg2 _ = V m c main_arg2 y
  congr 1
  funext a
  apply Fin.ext
  match a with
  | ⟨0, _⟩ => show win0_2.index t (0 : Fin 2) * 464 + 1 * (y 0).val = (y 0).val; rw [e0]; omega
  | ⟨1, _⟩ => show win0_2.index t (1 : Fin 2) * 64 + 1 * (y 1).val = (y 1).val; rw [e1]; omega

theorem iblk3_eq (c : Dev nD) (t : Fin cfg0.N) :
    (iblk m c 3 t : FVec Ideal S64 .f32) = (V m c main_arg3 : S64.Idx → EReal) := by
  obtain ⟨-, -, -, -, -, -, -, -, e0, -⟩ := idx_facts t
  funext y
  unfold iblk
  rw [View.read_apply]
  show V m c main_arg3 _ = V m c main_arg3 y
  congr 1
  funext a
  apply Fin.ext
  match a with
  | ⟨0, _⟩ => show win0_3.index t (0 : Fin 1) * 64 + 1 * (y 0).val = (y 0).val; rw [e0]; omega

theorem iblk4_eq (c : Dev nD) (t : Fin cfg0.N) :
    (iblk m c 4 t : FVec Ideal S64x32 .f32) = (V m c main_arg4 : S64x32.Idx → EReal) := by
  obtain ⟨-, -, -, -, -, -, -, -, -, e0, e1, -⟩ := idx_facts t
  funext y
  unfold iblk
  rw [View.read_apply]
  show V m c main_arg4 _ = V m c main_arg4 y
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 32 + 1 * (y 1).val = (y 1).val; rw [e1]; omega

theorem iblk5_eq (c : Dev nD) (t : Fin cfg0.N) :
    (iblk m c 5 t : FVec Ideal S32 .f32) = (V m c main_arg5 : S32.Idx → EReal) := by
  obtain ⟨-, -, -, -, -, -, -, -, -, -, -, e0, -⟩ := idx_facts t
  funext y
  unfold iblk
  rw [View.read_apply]
  show V m c main_arg5 _ = V m c main_arg5 y
  congr 1
  funext a
  apply Fin.ext
  match a with
  | ⟨0, _⟩ => show win0_5.index t (0 : Fin 1) * 32 + 1 * (y 0).val = (y 0).val; rw [e0]; omega

theorem iblk6_eq (c : Dev nD) (t : Fin cfg0.N) :
    (iblk m c 6 t : FVec Ideal S32x2 .f32) = (V m c main_arg6 : S32x2.Idx → EReal) := by
  obtain ⟨-, -, -, -, -, -, -, -, -, -, -, -, e0, e1, -⟩ := idx_facts t
  funext y
  unfold iblk
  rw [View.read_apply]
  show V m c main_arg6 _ = V m c main_arg6 y
  congr 1
  funext a
  apply Fin.ext
  match a with
  | ⟨0, _⟩ => show win0_6.index t (0 : Fin 2) * 32 + 1 * (y 0).val = (y 0).val; rw [e0]; omega
  | ⟨1, _⟩ => show win0_6.index t (1 : Fin 2) * 2 + 1 * (y 1).val = (y 1).val; rw [e1]; omega

theorem iblk7_eq (c : Dev nD) (t : Fin cfg0.N) :
    (iblk m c 7 t : FVec Ideal S2 .f32) = (V m c main_arg7 : S2.Idx → EReal) := by
  obtain ⟨-, -, -, -, -, -, -, -, -, -, -, -, -, -, e0, -⟩ := idx_facts t
  funext y
  unfold iblk
  rw [View.read_apply]
  show V m c main_arg7 _ = V m c main_arg7 y
  congr 1
  funext a
  apply Fin.ext
  match a with
  | ⟨0, _⟩ => show win0_7.index t (0 : Fin 1) * 2 + 1 * (y 0).val = (y 0).val; rw [e0]; omega

/-! ## What a point writes back, the cover, the final array -/

/-- The result array as the region's arguments determine it. -/
abbrev result (c : Dev nD) : S131072x2.Idx → EReal :=
  whole (V m c main_arg0) (V m c main_arg1) (V m c main_arg2) (V m c main_arg3) (V m c main_arg4) (V m c main_arg5)
    (V m c main_arg6) (V m c main_arg7)

/-- WHAT POINT `t` WRITES BACK is block `t` of `result`. -/
theorem flushed_eq (c : Dev nD) (t : Fin cfg0.N) :
    (dats m 0 c).flushed 8 t = ((cfg0.win 8).blk t).view.read (Elt Ideal) (result m c) := by
  rw [Cert.KernelIdeal.Value.flushed8]
  unfold out0_8
  rw [View.canon_unit_zero hz2]
  simp only [View.ld_unit_zero (S := S1024x2x116) hz3, View.ld_unit_zero (S := S464x64) hz2, View.ld_unit_zero (S := S64) hz1,
    View.ld_unit_zero (S := S64x32) hz2, View.ld_unit_zero (S := S32) hz1, View.ld_unit_zero (S := S32x2) hz2, View.ld_unit_zero (S := S2) hz1]
  funext y
  have hp : (y 0).val < 1024 := (y 0).isLt
  have hq : (y 1).val < 2 := (y 1).isLt
  have ht : t.val < 128 := t.isLt
  obtain ⟨-, -, -, -, -, -, -, -, -, -, -, -, -, -, -, e0, e1⟩ := idx_facts t
  rw [View.read_apply]
  have hx : (win0 8).xinj (grid0.coords t) y = ix2 (⟨(y 0).val, hp⟩ : Fin 1024) (⟨(y 1).val, hq⟩ : Fin 2) :=
    funext fun a => by match a with | ⟨0, _⟩ => rfl | ⟨1, _⟩ => rfl
  refine (congrArg _ hx).trans ?_
  refine (payload_apply (iblk m c 0 t) (iblk m c 1 t) (iblk m c 2 t) (iblk m c 3 t) (iblk m c 4 t) (iblk m c 5 t)
    (iblk m c 6 t) (iblk m c 7 t) ⟨(y 0).val, hp⟩ ⟨(y 1).val, hq⟩).trans ?_
  rw [iblk2_eq, iblk3_eq, iblk4_eq, iblk5_eq, iblk6_eq, iblk7_eq,
    iblk0_row m c t ⟨(y 0).val, hp⟩ ⟨1024 * t.val + (y 0).val, by omega⟩ rfl,
    iblk1_row m c t ⟨(y 0).val, hp⟩ ⟨1024 * t.val + (y 0).val, by omega⟩ rfl]
  unfold result whole
  have h0 : (((View.whole main_v0).slice ((win0 8).rect t)).emb y) 0 = (⟨1024 * t.val + (y 0).val, by omega⟩ : Fin 131072) :=
    Fin.ext (by show win0_8.index t (0 : Fin 2) * 1024 + 1 * (y 0).val = 1024 * t.val + (y 0).val; rw [e0]; omega)
  have h1 : (((View.whole main_v0).slice ((win0 8).rect t)).emb y) 1 = (⟨(y 1).val, hq⟩ : Fin 2) :=
    Fin.ext (by show win0_8.index t (1 : Fin 2) * 2 + 1 * (y 1).val = (y 1).val; rw [e1]; omega)
  show _ = net _ _ _ _ _ _ _ _ _
  rw [h0, h1]

/-- An index of the result array is in point `t`'s block iff each coordinate is in the block's range on its axis. -/
theorem mem_blk (t : Fin cfg0.N) (i : S131072x2.Idx) :
    i ∈ ((cfg0.win 8).blk t).view.set ↔ ∀ a : Fin 2, win0_8.index t a * S1024x2.size a ≤ (i a).val ∧ (i a).val < win0_8.index t a * S1024x2.size a + S1024x2.size a := by
  show i ∈ ((View.whole main_v0).slice (win0_8.rect t)).set ↔ _
  rw [View.set_slice_whole, Rect.mem_set_unit]
  exact Iff.rfl

/-- Every index of the result array is in the block of the point that holds its batch row. -/
theorem cover (i : S131072x2.Idx) : ∃ t : Fin cfg0.N, (cfg0.win 8).flush t = true ∧ i ∈ ((cfg0.win 8).blk t).view.set := by
  have h0 : (i 0).val < 131072 := (i 0).isLt
  have h1 : (i 1).val < 2 := (i 1).isLt
  have hN : cfg0.N = 128 := N_0
  have hlt : (i 0).val / 1024 < cfg0.N := by rw [hN]; omega
  obtain ⟨-, -, -, -, -, -, -, -, -, -, -, -, -, -, -, e0, e1⟩ := idx_facts ⟨(i 0).val / 1024, hlt⟩
  refine ⟨⟨(i 0).val / 1024, hlt⟩, flush0_8 _, ?_⟩
  rw [mem_blk]
  intro a
  match a with
  | ⟨0, _⟩ =>
    show win0_8.index ⟨(i 0).val / 1024, hlt⟩ (0 : Fin 2) * 1024 ≤ (i 0).val ∧ (i 0).val < win0_8.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_8.index ⟨(i 0).val / 1024, hlt⟩ (1 : Fin 2) * 2 ≤ (i 1).val ∧ (i 1).val < win0_8.index ⟨(i 0).val / 1024, hlt⟩ (1 : Fin 2) * 2 + 2
    rw [e1]; omega

/-- THE RESULT ARRAY after the run is `result`. -/
theorem final (c : Dev nD) : (dats m 0 c).arrAt 8 cfg0.N = result m c :=
  (dats m 0 c).arrAt_eq_of_cover 8 (result m c) (fun t _ => flushed_eq m c t) cover

/-- The kernel's run, read: the result array at `whole` of the arguments, the arguments unchanged. -/
theorem run : θ_run defs (onTc (τ := τ) (main (F := Ideal))) ⟨m, fun _ => 0, ρ⟩ fun r => ∀ c : Dev nD,
      r.2.mem ((c : Thread nD τ).loc main_v0) = whole (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩)
    (Cert.KernelIdeal.Value.run_blocks m ρ)

end Cert.KernelIdeal.Whole

end
-- ==== Proof.RefRows.lean ====
/-
  The reference, read one batch row at a time.

  Every stage of the reference acts row by row: the value of a stage at batch row `r` depends only on row
  `r` of the two inputs and on the weights. Stage by stage — the channel means, the gate, the gated
  channels, the feature vector, the three affine layers, the row maximum, the shifted exponentials and
  the final quotient — the stage at row `r` is the corresponding function of `Cert.GatedMlp` of that row.
  The reference spells the logistic function as `1 / (1 + exp (-x))`, which is `Ideal.logistic x` by
  definition once the literal `1.0` is read as the extended real one; its sums carry the initial value
  `0.0`, which is the extended real zero.
-/
import proofs.«141729_j73023033966684_1_alg».proof.Proof.Gen.ReferenceIdeal.Read
import proofs.«141729_j73023033966684_1_alg».proof.Proof.Spec
import Idealize.ShloMosaic.Lib.IdealHost
import Idealize.ShloMosaic.Lib.Pipeline.Value
import Idealize.ShloMosaic.PureOps.Ideal.Laws

noncomputable section

open scoped BigOperators

namespace Cert.ReferenceIdeal.Rows

open Cert.ReferenceIdeal Cert.ReferenceIdeal.Gen Cert.ReferenceIdeal.Read Cert.GatedMlp
open Idealize.ShloMosaic Idealize.ShloMosaic.ValueIdx

variable (X0 X1 : S131072x2x116.Idx → EReal) (X2 : S464x64.Idx → EReal) (X3 : S64.Idx → EReal)
  (X4 : S64x32.Idx → EReal) (X5 : S32.Idx → EReal) (X6 : S32x2.Idx → EReal) (X7 : S2.Idx → EReal)

/-! ## The index maps of the generated reading, at coordinates -/

theorem idx_v0 (r : Fin 131072) (j : Fin 116) (k : Fin 2) : idx_main_v0 (ix2 r j) k = ix3 r k j :=
  funext fun a => by match a with | ⟨0, _⟩ => rfl | ⟨1, _⟩ => rfl | ⟨2, _⟩ => rfl
theorem idx_v3 (r : Fin 131072) (j : Fin 116) (k : Fin 2) : idx_main_v3 (ix2 r j) k = ix3 r k j :=
  funext fun a => by match a with | ⟨0, _⟩ => rfl | ⟨1, _⟩ => rfl | ⟨2, _⟩ => rfl

/-- The mean of the first input's channels at row `r`, lane `j`. -/
theorem mean0 (r : Fin 131072) (j : Fin 116) : val_main_v2 (F := Ideal) X0 (ix2 r j) = chanMean (row X0 r) j := by
  rw [val_main_v2_apply, val_main_v0_apply, val_main_v1_apply, val_main_cst_0_apply, val_main_cst_apply]
  simp only [Ideal.hostDivf_def, Ideal.ofBits_def, Ideal.ofBits_zero_f32, zero_add, idx_v0]
  rfl

/-- The mean of the second input's channels at row `r`, lane `j`. -/
theorem mean1 (r : Fin 131072) (j : Fin 116) : val_main_v5 (F := Ideal) X1 (ix2 r j) = chanMean (row X1 r) j := by
  rw [val_main_v5_apply, val_main_v3_apply, val_main_v4_apply, val_main_cst_2_apply, val_main_cst_1_apply]
  simp only [Ideal.hostDivf_def, Ideal.ofBits_def, Ideal.ofBits_zero_f32, zero_add, idx_v3]
  rfl

/-- The gate at row `r`, lane `j`: the reference's `1 / (1 + exp (-x))` is the logistic function. -/
theorem gate_row (r : Fin 131072) (j : Fin 116) :
    val_main_v12 (F := Ideal) X0 X1 (ix2 r j) = gate (row X0 r) (row X1 r) j := by
  rw [val_main_v12_apply, val_main_v11_apply, val_main_cst_4_apply, val_main_v10_apply, val_main_v9_apply,
    val_main_cst_3_apply, val_main_v8_apply, val_main_v7_apply, val_main_v6_apply, mean0, mean1]
  simp only [Ideal.hostDivf_def, Ideal.ofBits_def, Ideal.ofBits_one_f32, Ideal.hostUnary_exp_def, Ideal.hostNegf_def,
    Ideal.negf_def, Ideal.addf_def, Ideal.mulf_def]
  rfl

/-! ## The gated channels and the feature vector -/

theorem idx_v13_14 (r : Fin 131072) (k : Fin 2) (j : Fin 116) : idx_main_v13 (idx_main_v14 (ix3 r k j)) = ix2 r j :=
  funext fun a => by match a with | ⟨0, _⟩ => rfl | ⟨1, _⟩ => rfl
theorem idx_v13_16 (r : Fin 131072) (k : Fin 2) (j : Fin 116) : idx_main_v13 (idx_main_v16 (ix3 r k j)) = ix2 r j :=
  funext fun a => by match a with | ⟨0, _⟩ => rfl | ⟨1, _⟩ => rfl

/-- A channel of the first input, gated. -/
theorem gated0 (r : Fin 131072) (k : Fin 2) (j : Fin 116) :
    val_main_v15 (F := Ideal) X0 X1 (ix3 r k j) = X0 (ix3 r k j) * gate (row X0 r) (row X1 r) j := by
  rw [val_main_v15_apply, val_main_v14_apply, val_main_v13_apply, idx_v13_14, gate_row]
  rfl

/-- A channel of the second input, gated. -/
theorem gated1 (r : Fin 131072) (k : Fin 2) (j : Fin 116) :
    val_main_v17 (F := Ideal) X0 X1 (ix3 r k j) = X1 (ix3 r k j) * gate (row X0 r) (row X1 r) j := by
  rw [val_main_v17_apply, val_main_v16_apply, val_main_v13_apply, idx_v13_16, gate_row]
  rfl

/-- The feature vector at row `r`: the reshape reads the joined array at channel `c / 116`, lane `c % 116`, and
    the join reads the first input's gated channels below channel 2 and the second's from channel 2 on. -/
theorem feat_row (r : Fin 131072) (c : Fin 464) :
    val_main_v19 (F := Ideal) X0 X1 (ix2 r c) = feat (row X0 r) (row X1 r) c := by
  have hc : c.val < 464 := c.isLt
  have hr : r.val < 131072 := r.isLt
  rw [val_main_v19_apply]
  unfold val_main_v18 feat gated
  by_cases h : c.val / 116 < 2
  · rw [dif_pos h]
    refine (concatenate_pair_apply_left (t := S131072x4x116) (s₁ := S131072x2x116) (s₂ := S131072x2x116) 1 _ _ _ (idx_main_v19 (ix2 r c)) rfl
      (ix3 r (⟨c.val / 116, h⟩ : Fin 2) (⟨c.val % 116, Nat.mod_lt _ (by norm_num)⟩ : Fin 116)) ?_).trans ?_
    · intro b
      match b with
      | ⟨0, _⟩ => show r.val = (r.val * 464 + c.val) / 464; omega
      | ⟨1, _⟩ => show c.val / 116 = (r.val * 464 + c.val) / 116 % 4; omega
      | ⟨2, _⟩ => show c.val % 116 = (r.val * 464 + c.val) % 116; omega
    · rw [gated0]; rfl
  · rw [dif_neg h]
    have h4 : c.val / 116 < 4 := by omega
    refine (concatenate_pair_apply_right (t := S131072x4x116) (s₁ := S131072x2x116) (s₂ := S131072x2x116) 1 _ _ _ (idx_main_v19 (ix2 r c)) rfl rfl
      (ix3 r (⟨c.val / 116 - 2, by omega⟩ : Fin 2) (⟨c.val % 116, Nat.mod_lt _ (by norm_num)⟩ : Fin 116)) ?_ ?_).trans ?_
    · intro b hb
      match b, hb with
      | ⟨0, _⟩, _ => show r.val = (r.val * 464 + c.val) / 464; omega
      | ⟨1, _⟩, hb => exact absurd rfl hb
      | ⟨2, _⟩, _ => show c.val % 116 = (r.val * 464 + c.val) % 116; omega
    · show c.val / 116 - 2 + 2 = (r.val * 464 + c.val) / 116 % 4; omega
    · rw [gated1]; rfl

/-! ## The affine layers -/

theorem lidx_v20 (r : Fin 131072) (n : Fin 64) (k : Fin 464) : lidx_main_v20 (ix2 r n) k = ix2 r k :=
  funext fun a => by match a with | ⟨0, _⟩ => rfl | ⟨1, _⟩ => rfl
theorem ridx_v20 (r : Fin 131072) (n : Fin 64) (k : Fin 464) : ridx_main_v20 (ix2 r n) k = ix2 k n :=
  funext fun a => by match a with | ⟨0, _⟩ => rfl | ⟨1, _⟩ => rfl
theorem idx_v21_22 (r : Fin 131072) (n : Fin 64) : idx_main_v21 (idx_main_v22 (ix2 r n)) = ix1 n :=
  funext fun a => by match a with | ⟨0, _⟩ => rfl
theorem lidx_v25 (r : Fin 131072) (n : Fin 32) (k : Fin 64) : lidx_main_v25 (ix2 r n) k = ix2 r k :=
  funext fun a => by match a with | ⟨0, _⟩ => rfl | ⟨1, _⟩ => rfl
theorem ridx_v25 (r : Fin 131072) (n : Fin 32) (k : Fin 64) : ridx_main_v25 (ix2 r n) k = ix2 k n :=
  funext fun a => by match a with | ⟨0, _⟩ => rfl | ⟨1, _⟩ => rfl
theorem idx_v26_27 (r : Fin 131072) (n : Fin 32) : idx_main_v26 (idx_main_v27 (ix2 r n)) = ix1 n :=
  funext fun a => by match a with | ⟨0, _⟩ => rfl
theorem lidx_v30 (r : Fin 131072) (n : Fin 2) (k : Fin 32) : lidx_main_v30 (ix2 r n) k = ix2 r k :=
  funext fun a => by match a with | ⟨0, _⟩ => rfl | ⟨1, _⟩ => rfl
theorem ridx_v30 (r : Fin 131072) (n : Fin 2) (k : Fin 32) : ridx_main_v30 (ix2 r n) k = ix2 k n :=
  funext fun a => by match a with | ⟨0, _⟩ => rfl | ⟨1, _⟩ => rfl
theorem idx_v31_32 (r : Fin 131072) (n : Fin 2) : idx_main_v31 (idx_main_v32 (ix2 r n)) = ix1 n :=
  funext fun a => by match a with | ⟨0, _⟩ => rfl

/-- The first hidden layer at row `r`. -/
theorem hidden1_row (r : Fin 131072) (n : Fin 64) :
    val_main_v24 (F := Ideal) X0 X1 X2 X3 (ix2 r n) = hidden1 (row X0 r) (row X1 r) X2 X3 n := by
  rw [val_main_v24_apply, val_main_v23_apply, val_main_v20_apply, val_main_v22_apply, val_main_v21_apply,
    val_main_call0_v0_apply, val_main_call0_cst_apply, idx_v21_22]
  simp only [lidx_v20, ridx_v20, feat_row]
  rfl

/-- The second hidden layer at row `r`. -/
theorem hidden2_row (r : Fin 131072) (n : Fin 32) :
    val_main_v29 (F := Ideal) X0 X1 X2 X3 X4 X5 (ix2 r n) = hidden2 (row X0 r) (row X1 r) X2 X3 X4 X5 n := by
  rw [val_main_v29_apply, val_main_v28_apply, val_main_v25_apply, val_main_v27_apply, val_main_v26_apply,
    val_main_call1_v0_apply, val_main_call1_cst_apply, idx_v26_27]
  simp only [lidx_v25, ridx_v25, hidden1_row]
  rfl

/-- The logits at row `r`. -/
theorem logits_row (r : Fin 131072) (q : Fin 2) :
    val_main_v33 (F := Ideal) X0 X1 X2 X3 X4 X5 X6 X7 (ix2 r q) = logits (row X0 r) (row X1 r) X2 X3 X4 X5 X6 X7 q := by
  rw [val_main_v33_apply, val_main_v30_apply, val_main_v32_apply, val_main_v31_apply, idx_v31_32]
  simp only [lidx_v30, ridx_v30, hidden2_row]
  rfl

/-! ## The softmax -/

theorem idx_v37_38 (r : Fin 131072) (q : Fin 2) : idx_main_v37 (idx_main_v38 (ix2 r q)) = ix1 r :=
  funext fun a => by match a with | ⟨0, _⟩ => rfl
theorem idx_v42_43 (r : Fin 131072) (q : Fin 2) : idx_main_v42 (idx_main_v43 (ix2 r q)) = ix1 r :=
  funext fun a => by match a with | ⟨0, _⟩ => rfl
theorem idx_v41 (r : Fin 131072) (k : Fin 2) : idx_main_v41 (ix1 r) k = ix2 r k :=
  funext fun a => by match a with | ⟨0, _⟩ => rfl | ⟨1, _⟩ => rfl

/-- The row maximum at row `r`: the host's reduction with `max` over the two logits is the fold of `max` from its
    initial value `-inf`. -/
theorem rowMax_row (r : Fin 131072) :
    val_main_v36 (F := Ideal) X0 X1 X2 X3 X4 X5 X6 X7 (ix1 r) = rowMax (logits (row X0 r) (row X1 r) X2 X3 X4 X5 X6 X7) := by
  have hred : Shape.Reduces S131072x2 [1] S131072 := by decide
  rw [val_main_v36_apply, val_main_v35_apply, val_main_cst_6_apply]
  unfold val_main_v34
  rw [Host.reduce_eq_fold_single (FloatOps.maximumf (F := Ideal) (φ := .f32)) _ _ reducesTo_S131072x2_S131072_d1 hred h_S_ (ix1 r)]
  have hl : (val_main_v33 (F := Ideal) X0 X1 X2 X3 X4 X5 X6 X7 ∘ hred.lift (ix1 r))
      = logits (row X0 r) (row X1 r) X2 X3 X4 X5 X6 X7 := by
    funext k
    show val_main_v33 (F := Ideal) X0 X1 X2 X3 X4 X5 X6 X7 (hred.lift (ix1 r) k) = _
    rw [show hred.lift (ix1 r) k = ix2 r k from funext fun a => Fin.ext (by match a with | ⟨0, _⟩ => rfl | ⟨1, _⟩ => rfl)]
    exact logits_row X0 X1 X2 X3 X4 X5 X6 X7 r k
  rw [hl]
  rfl

/-- The shifted exponential at row `r`. -/
theorem expShift_row (r : Fin 131072) (q : Fin 2) :
    val_main_v40 (F := Ideal) X0 X1 X2 X3 X4 X5 X6 X7 (ix2 r q)
      = expShift (logits (row X0 r) (row X1 r) X2 X3 X4 X5 X6 X7) q := by
  rw [val_main_v40_apply, val_main_v39_apply, val_main_v38_apply, val_main_v37_apply, idx_v37_38, logits_row, rowMax_row]
  rfl

/-- The reference's result at row `r`: the network's output for that row. -/
theorem net_row (r : Fin 131072) (q : Fin 2) :
    val_main_v44 (F := Ideal) X0 X1 X2 X3 X4 X5 X6 X7 (ix2 r q)
      = net (row X0 r) (row X1 r) X2 X3 X4 X5 X6 X7 q := by
  rw [val_main_v44_apply, val_main_v43_apply, val_main_v42_apply, val_main_v41_apply, val_main_cst_7_apply, idx_v42_43,
    expShift_row]
  simp only [idx_v41, expShift_row, Ideal.hostDivf_def, Ideal.ofBits_def, Ideal.ofBits_zero_f32, zero_add]
  rfl

/-- The reference's result array as one function of its arguments: at `(r, q)` the network's output `q` for row `r`. -/
theorem result_eq : val_main_v44 (F := Ideal) X0 X1 X2 X3 X4 X5 X6 X7 = whole X0 X1 X2 X3 X4 X5 X6 X7 := by
  funext i
  rw [eq_ix2 i]
  exact net_row X0 X1 X2 X3 X4 X5 X6 X7 (i 0) (i 1)

end Cert.ReferenceIdeal.Rows

end
-- ==== Proof.lean ====
/-
  A gated three-layer classifier over 131072 batch rows, as one Pallas kernel gridded over the batch, against
  its jnp reference, at the ideal instance (floats are extended reals, operations exact, format changes the
  identity).

  Both programs compute, for each batch row, the same function of that row and of the weights
  (`Cert.GatedMlp.net`, proof/Proof/Spec.lean): the two channel means of each input, the logistic gate of their
  product, the four gated channels laid end to end into 464 features, three affine layers (the first two
  clipped at zero) and a softmax over the two logits. The two texts differ only in spelling. The kernel's
  `logistic` is by definition the reference's `1 / (1 + exp (-x))`; the kernel's matrix products accumulate into
  zero and are the reference's dot products, both plain sums over the contracted index; the kernel's
  reductions start from their neutral word where the reference's carry an initial `0.0`; the kernel narrows to
  bf16 before each product, which is the identity here. No algebraic law beyond `0 + x = x` joins the two
  sides, so the precondition (finite inputs) is never opened.

  The kernel's frames and the blockwise value leg are the generated ones; the reference's frame is its generated
  run with the result dropped. `preserves` is trivial: the idealization rewrote nothing. For `algebraic`, the
  kernel's result array is `Cert.GatedMlp.whole` of the arguments (proof/Proof/KerRows.lean reads the body's
  stored value at a block row, proof/Proof/KerArray.lean assembles the 128 blocks), and so is the reference's
  (proof/Proof/RefRows.lean reads every stage of the reference at a row).
-/
import proofs.«141729_j73023033966684_1_alg».proof.Defs
import proofs.«141729_j73023033966684_1_alg».proof.Proof.Gen.Kernel
import proofs.«141729_j73023033966684_1_alg».proof.Proof.Gen.Kernel.Skeleton
import proofs.«141729_j73023033966684_1_alg».proof.Proof.Gen.Kernel.Launch
import proofs.«141729_j73023033966684_1_alg».proof.Proof.Gen.Kernel.Points
import proofs.«141729_j73023033966684_1_alg».proof.Proof.Gen.Kernel.Frame
import proofs.«141729_j73023033966684_1_alg».proof.Proof.Gen.KernelIdeal
import proofs.«141729_j73023033966684_1_alg».proof.Proof.Gen.KernelIdeal.Skeleton
import proofs.«141729_j73023033966684_1_alg».proof.Proof.Gen.KernelIdeal.Launch
import proofs.«141729_j73023033966684_1_alg».proof.Proof.Gen.KernelIdeal.Points
import proofs.«141729_j73023033966684_1_alg».proof.Proof.Gen.KernelIdeal.Frame
import proofs.«141729_j73023033966684_1_alg».proof.Proof.Gen.ReferenceIdeal
import proofs.«141729_j73023033966684_1_alg».proof.Proof.Gen.Pre_finite_inputs
import proofs.«141729_j73023033966684_1_alg».proof.Proof.Gen.KernelIdeal.Value
import proofs.«141729_j73023033966684_1_alg».proof.Proof.Gen.ReferenceIdeal.Run
import proofs.«141729_j73023033966684_1_alg».proof.Proof.Gen.ReferenceIdeal.Read
import proofs.«141729_j73023033966684_1_alg».proof.Proof.KerArray
import proofs.«141729_j73023033966684_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with one result array:
    `Cert.GatedMlp.whole` of the arguments, row by row the network's output. -/
theorem algebraic : Cert.algebraic_KernelIdeal_ReferenceIdeal := by
  intro m ρ m' ρ' _ hagree
  refine ⟨fun c => Cert.GatedMlp.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.Rows.result_eq]
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
